-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.AffineSpec.lean ====
/-
  The function both programs compute, and the one matrix product the kernel's body holds, read entry by entry.

  Both programs compute the affine map of a linear layer over the extended reals:
      out[r, c] = (∑ k, x[r, k] · w[c, k]) + b[c],        r < 4096, c < 2048, k < 2048,
  the weight matrix contracted along its SECOND axis (it is stored [out, in]).  The reference contracts the two stored
  arrays on their last axes directly; the kernel first transposes the weight to [in, out] on the host and then multiplies
  a block of 512 rows of x by the whole transposed matrix, a plain rows-by-columns product.  This module states the map once
  and reads a plain rows-by-columns product at an entry as the sum over the contracted coordinate.
-/
import Idealize.ShloMosaic.PureOps.Ideal
import Idealize.ShloMosaic.PureOps.Ideal.Laws
import Idealize.ShloMosaic.Lib.ValueIdx

noncomputable section

open scoped BigOperators

namespace Cert.Affine

open Idealize.ShloMosaic Idealize.ShloMosaic.ValueIdx

/-- The linear layer: entry (r, c) of the result is the sum over k of x[r, k] · w[c, k], plus b[c]. -/
def affine (x : (⟨2, ![4096, 2048]⟩ : Shape).Idx → EReal) (w : (⟨2, ![2048, 2048]⟩ : Shape).Idx → EReal)
    (b : (⟨1, ![2048]⟩ : Shape).Idx → EReal) : (⟨2, ![4096, 2048]⟩ : Shape).Idx → EReal :=
  fun i => (∑ k : Fin 2048, x (ix2 (i 0) k) * w (ix2 (i 1) k)) + b (ix1 (i 1))

/-- The map at an entry given by its two coordinates. -/
theorem affine_ix2 (x : (⟨2, ![4096, 2048]⟩ : Shape).Idx → EReal) (w : (⟨2, ![2048, 2048]⟩ : Shape).Idx → EReal)
    (b : (⟨1, ![2048]⟩ : Shape).Idx → EReal) (r : Fin 4096) (c : Fin 2048) :
    affine x w b (ix2 r c) = (∑ k : Fin 2048, x (ix2 r k) * w (ix2 c k)) + b (ix1 c) := rfl

/-- A rows-by-columns product A[m, k] · B[k, n] accumulated into zero, at entry (a, b): the sum over the contracted
    coordinate c of A[a, c] · B[c, b].  The contraction's one-axis index set is re-indexed by its coordinate. -/
theorem matmul_zero_rows_cols_apply {m k n : Nat} {φ₁ φ₂ : FTy}
    (wf : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], wf⟩ : DotDims _ _ _) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], wf⟩ : DotDims _ _ _) k rfl rfl).symm]
  refine Finset.sum_congr rfl fun c _ => ?_
  have hc := contrEquiv1_symm_val
    (⟨[1], [0], [0], [1], [], [], wf⟩ : DotDims ⟨2, ![m, k]⟩ ⟨2, ![k, n]⟩ ⟨2, ![m, n]⟩) k rfl rfl c
  have hl : (⟨[1], [0], [0], [1], [], [], wf⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], wf⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.Affine

end
-- ==== Proof.KernelBody.lean ====
/-
  The kernel's body at an entry, and the two arrays the host prepares for it.

  At one grid point the body holds a block X of 512 rows of x, the whole transposed weight T[k, n] and the bias as a
  1 × 2048 row B.  Its one store writes  X · T + broadcast(B):  entry (p, q) is the sum over k of X[p, k] · T[k, q],
  plus B[0, q].  (The narrowing of both factors to bf16 is the identity on extended reals, and the body's two shape
  casts are casts of a shape to itself.)
  Before the call the host transposes the weight, T[k, n] = weight[n, k], and reshapes the bias to one row,
  B[0, n] = bias[n].
-/
import proofs.«411800_j32555852104251_3_alg».proof.Proof.Gen.KernelIdeal.Value
import proofs.«411800_j32555852104251_3_alg».proof.Proof.AffineSpec
import Idealize.ShloMosaic.Lib.Pipeline.Value
import Idealize.ShloMosaic.Lib.ValueIdx

noncomputable section

open scoped BigOperators

namespace Cert.KernelIdeal.Affine

open Cert.KernelIdeal Cert.KernelIdeal.Gen Idealize.ShloMosaic Idealize.ShloMosaic.TcCoe Idealize.SL.Sem
open Idealize.ShloMosaic.ValueIdx

/-- The body's stored value at entry (p, q): the row-by-column sum plus the bias row's entry q. -/
theorem body_apply (x0 : Vec Ideal S512x2048 .f32) (x1 : Vec Ideal S2048x2048 .bf16) (x2 : Vec Ideal S1x2048 .f32)
    (p : Fin 512) (q : Fin 2048) :
    k0_pay1 (F := Ideal) x0 x1 x2 (ix2 p q)
      = (∑ k : Fin 2048, x0 (ix2 p k) * x1 (ix2 k q)) + x2 (ix2 (0 : Fin 1) q) := by
  unfold k0_pay1
  show (matmul (F := Ideal) dot_S512x2048_S2048x2048_S512x2048_1_0_0_1_n_n none (truncf (F := Ideal) .bf16 x0 bitsLt_bf16_f32)
        (shapeCast S2048x2048 x1 shapeCasts_S2048x2048_S2048x2048) (constant (F := Ideal) S512x2048 .f32 0x00000000#32)) (ix2 p q)
      + (broadcastTo S512x2048 (shapeCast S1x2048 x2 shapeCasts_S1x2048_S1x2048) broadcasts_S1x2048_S512x2048) (ix2 p q) = _
  rw [shapeCast_self, shapeCast_self]
  refine congrArg₂ (· + ·) ?_ ?_
  · exact Cert.Affine.matmul_zero_rows_cols_apply dot_S512x2048_S2048x2048_S512x2048_1_0_0_1_n_n_wf none
      (truncf (F := Ideal) .bf16 x0 bitsLt_bf16_f32) x1 p q
  · exact broadcastTo_apply x2 broadcasts_S1x2048_S512x2048 (ix2 p q) (ix2 (0 : Fin 1) q) (fun a => match a with
      | ⟨0, _⟩ => by show (0 : ℕ) = if (1 : ℕ) = 1 then 0 else p.val; rw [if_pos rfl]
      | ⟨1, _⟩ => by show q.val = if (2048 : ℕ) = 1 then 0 else q.val; rw [if_neg (by decide)])

variable (m : (ℓ : Loc nD τ sig) → Buf (Elt Ideal) ℓ)

/-- The transposed weight as the region finds it: entry (k, n) is weight[n, k]. -/
theorem V_weightT (c : Dev nD) (k n : Fin 2048) :
    V m c main_call0_v1 (ix2 k n) = m ((c : Thread nD τ).loc main_arg1) (ix2 n k) := by
  have e : (V m c main_call0_v1 : S2048x2048.Idx → EReal)
      = truncf (F := Ideal) .bf16 (transpose S2048x2048 [1, 0] (m ((c : Thread nD τ).loc main_arg1)) transposes_S2048x2048_S2048x2048_1_0) bitsLt_bf16_f32 := by
    dsimp only [Gen.V, Gen.hostOps0]; after_results; rfl
  refine (congrFun e (ix2 k n)).trans ?_
  show transpose S2048x2048 [1, 0] (m ((c : Thread nD τ).loc main_arg1)) transposes_S2048x2048_S2048x2048_1_0 (ix2 k n) = _
  exact transpose_apply [1, 0] _ transposes_S2048x2048_S2048x2048_1_0 (ix2 k n) (ix2 n k) (fun b => match b with
    | ⟨0, _⟩ => rfl
    | ⟨1, _⟩ => rfl)

/-- The bias row as the region finds it: entry (0, n) is bias[n]. -/
theorem V_biasRow (c : Dev nD) (n : Fin 2048) :
    V m c main_call0_v2 (ix2 (0 : Fin 1) n) = m ((c : Thread nD τ).loc main_arg2) (ix1 n) := by
  have e : (V m c main_call0_v2 : S1x2048.Idx → EReal)
      = shapeCast S1x2048 (m ((c : Thread nD τ).loc main_arg2)) shapeCasts_S2048_S1x2048 := by
    dsimp only [Gen.V, Gen.hostOps0]; after_results; rfl
  refine (congrFun e (ix2 (0 : Fin 1) n)).trans ?_
  exact shapeCast_apply _ shapeCasts_S2048_S1x2048 (ix2 (0 : Fin 1) n) (ix1 n) (by
    rw [Shape.rowMajor_val_two, Shape.rowMajor_val_one]
    show n.val = 0 * 2048 + n.val
    omega)

end Cert.KernelIdeal.Affine

end
-- ==== Proof.KernelArray.lean ====
/-
  From what each grid point writes back to the whole result array.

  The grid has 8 points; point t multiplies rows 512·t … 512·t + 511 of x by the whole transposed weight, adds the bias
  row, and writes the 512 × 2048 block back to the same rows of the result.  So what point t writes back is block t
  of the affine map of the three arguments, the eight blocks tile the 4096 rows, and the array after the run is the
  affine map.
-/
import proofs.«411800_j32555852104251_3_alg».proof.Proof.KernelBody

noncomputable section

open scoped BigOperators

namespace Cert.KernelIdeal.Affine

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 8 points: x's and the result's blocks move together down the rows, at
    block row t; the transposed weight and the bias row stay at block (0, 0). -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The affine map of the argument arrays as launched, on core c. -/
abbrev result (c : Dev nD) : S4096x2048.Idx → EReal :=
  Cert.Affine.affine (m ((c : Thread nD τ).loc main_arg0)) (m ((c : Thread nD τ).loc main_arg1)) (m ((c : Thread nD τ).loc main_arg2))

/-- What point t writes back is block t of the affine map. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S512x2048) zero_offsets, View.ld_unit_zero (S := S2048x2048) zero_offsets,
    View.ld_unit_zero (S := S1x2048) zero_offsets]
  obtain ⟨e00, e01, e10, e11, e20, e21, e30, e31⟩ := index_facts t
  have ht : t.val < 8 := t.isLt
  funext j
  obtain ⟨p, q, rfl⟩ : ∃ (p : Fin 512) (q : Fin 2048), j = ix2 p q := ⟨j 0, j 1, eq_ix2 j⟩
  -- the entry of the result this block entry lands on: row 512·t + p, column q
  have hout : ((cfg0.win 3).blk t).view.emb (ix2 p q) = ix2 (⟨512 * t.val + p.val, by omega⟩ : Fin 4096) q := by
    funext a; apply Fin.ext
    match a with
    | ⟨0, _⟩ => show win0_3.index t (0 : Fin 2) * 512 + 1 * p.val = 512 * t.val + p.val; omega
    | ⟨1, _⟩ => show win0_3.index t (1 : Fin 2) * 2048 + 1 * q.val = q.val; omega
  show k0_pay1 (F := Ideal) (iblk m c 0 t) (iblk m c 1 t) (iblk m c 2 t) (ix2 p q)
    = result m c (((cfg0.win 3).blk t).view.emb (ix2 p q))
  rw [hout]
  -- x's block t, row p, is row 512·t + p of x
  have hx : ∀ k : Fin 2048, iblk m c 0 t (ix2 p k)
      = m ((c : Thread nD τ).loc main_arg0) (ix2 (⟨512 * t.val + p.val, by omega⟩ : Fin 4096) k) := by
    intro k
    show V m c main_arg0 (((cfg0.win 0).blk t).view.emb (ix2 p k)) = _
    rw [V_main_arg0]
    refine congrArg _ ?_
    funext a; apply Fin.ext
    match a with
    | ⟨0, _⟩ => show win0_0.index t (0 : Fin 2) * 512 + 1 * p.val = 512 * t.val + p.val; omega
    | ⟨1, _⟩ => show win0_0.index t (1 : Fin 2) * 2048 + 1 * k.val = k.val; omega
  -- the transposed weight's one block is the whole of it
  have hw : ∀ k : Fin 2048, iblk m c 1 t (ix2 k q) = m ((c : Thread nD τ).loc main_arg1) (ix2 q k) := by
    intro k
    show V m c main_call0_v1 (((cfg0.win 1).blk t).view.emb (ix2 k q)) = _
    have hi : ((cfg0.win 1).blk t).view.emb (ix2 k q) = ix2 k q := by
      funext a; apply Fin.ext
      match a with
      | ⟨0, _⟩ => show win0_1.index t (0 : Fin 2) * 2048 + 1 * k.val = k.val; omega
      | ⟨1, _⟩ => show win0_1.index t (1 : Fin 2) * 2048 + 1 * q.val = q.val; omega
    rw [hi]
    exact V_weightT m c k q
  -- the bias row's one block is the whole of it
  have hb : iblk m c 2 t (ix2 (0 : Fin 1) q) = m ((c : Thread nD τ).loc main_arg2) (ix1 q) := by
    show V m c main_call0_v2 (((cfg0.win 2).blk t).view.emb (ix2 (0 : Fin 1) q)) = _
    have hi : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 2048 + 1 * q.val = q.val; omega
    rw [hi]
    exact V_biasRow m c q
  refine (body_apply (iblk m c 0 t) (iblk m c 1 t) (iblk m c 2 t) p q).trans (Eq.trans ?_
    (Cert.Affine.affine_ix2 (m ((c : Thread nD τ).loc main_arg0)) (m ((c : Thread nD τ).loc main_arg1))
      (m ((c : Thread nD τ).loc main_arg2)) (⟨512 * t.val + p.val, by omega⟩ : Fin 4096) q).symm)
  rw [hb]
  refine congrArg (· + _) (Finset.sum_congr rfl fun k _ => ?_)
  rw [hx k, hw k]

/-- An entry of the result lies in point t's block iff, on each axis, its coordinate lies in the block's range. -/
theorem mem_block (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0).slice (win0_3.rect t)).set ↔ _
  rw [View.set_slice_whole, Rect.mem_set_unit]
  exact Iff.rfl

/-- The eight blocks tile the rows: the entry in row r lies in the block of point r / 512. -/
theorem covered (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ : ∃ t : Fin cfg0.N, t.val = (i 0).val / 512 := ⟨(⟨(i 0).val / 512, by omega⟩ : Fin 8), rfl⟩
  obtain ⟨-, -, -, -, -, -, e30, e31⟩ := index_facts t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- The result array after the run is the affine map of the arguments. -/
theorem final (c : Dev nD) : (dats m 0 c).arrAt 3 cfg0.N = result m c :=
  (dats m 0 c).arrAt_eq_of_cover 3 (result m c) (fun t _ => flushed_eq m c t) covered

/-- The kernel's run: it terminates with the result array at the affine map of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Affine

end
-- ==== Proof.RefAffine.lean ====
/-
  The reference's result, entry by entry, is the affine map.

  The reference contracts x[4096, 2048] and weight[2048, 2048] on their last axes — entry (r, c) of the product is the
  sum over k of x[r, k] · weight[c, k] — and adds the bias broadcast along the rows, first to [1, 2048] and then to
  [4096, 2048]: entry (r, c) of the broadcast is bias[c].  Reading the four operations at an index in turn gives
  exactly `Cert.Affine.affine`.
-/
import proofs.«411800_j32555852104251_3_alg».proof.Proof.Gen.ReferenceIdeal.Read
import proofs.«411800_j32555852104251_3_alg».proof.Proof.AffineSpec

noncomputable section

open scoped BigOperators

namespace Cert.ReferenceIdeal.Affine

open Cert.ReferenceIdeal Cert.ReferenceIdeal.Read Idealize.ShloMosaic Idealize.ShloMosaic.ValueIdx

/-- The contraction's left index at (i, k) is row `i 0` of x at column k. -/
theorem lidx_eq (i : S4096x2048.Idx) (k : Fin 2048) : lidx_main_v0 i k = ix2 (i 0) k :=
  funext fun a => Fin.ext (by match a with | ⟨0, _⟩ => rfl | ⟨1, _⟩ => rfl)

/-- The contraction's right index at (i, k) is row `i 1` of the weight at column k: the weight is contracted on its
    second axis. -/
theorem ridx_eq (i : S4096x2048.Idx) (k : Fin 2048) : ridx_main_v0 i k = ix2 (i 1) k :=
  funext fun a => Fin.ext (by match a with | ⟨0, _⟩ => rfl | ⟨1, _⟩ => rfl)

/-- Through the two broadcasts, entry i of the broadcast bias is the bias at i's column. -/
theorem bidx_eq (i : S4096x2048.Idx) : idx_main_v1 (idx_main_v2 i) = ix1 (i 1) :=
  funext fun a => Fin.ext (by match a with | ⟨0, _⟩ => rfl)

/-- The reference's last stage is the affine map of its three arguments. -/
theorem ref_eq_affine (x : (⟨S4096x2048, .f32⟩ : BufTy).Contents (Elt Ideal))
    (w : (⟨S2048x2048, .f32⟩ : BufTy).Contents (Elt Ideal)) (b : (⟨S2048, .f32⟩ : BufTy).Contents (Elt Ideal)) :
    val_main_v3 (F := Ideal) x w b = Cert.Affine.affine x w b := by
  funext i
  rw [val_main_v3_apply, val_main_v0_apply, val_main_v2_apply, val_main_v1_apply]
  simp only [lidx_eq, ridx_eq, bidx_eq]
  rfl

end Cert.ReferenceIdeal.Affine

end
-- ==== Proof.lean ====
/-
  A linear layer: the kernel and its reference compute the same affine map over the extended reals.

  For x[4096, 2048], weight[2048, 2048] (stored [out, in]) and bias[2048], both programs end with
      out[r, c] = (∑ k, x[r, k] · weight[c, k]) + bias[c].
  The reference contracts x and weight on their last axes and adds the bias broadcast down the rows.  The kernel
  transposes the weight on the host, then at each of 8 grid points multiplies 512 rows of x by the whole transposed
  weight — a rows-by-columns product — adds the bias row, and writes the block back; the narrowing of the factors to
  bf16 is the identity on extended reals.  Entry by entry the two sums have the same terms in the same order, the
  contraction being re-indexed by its one coordinate on both sides, so no law beyond that re-indexing is needed and the
  finiteness of the inputs is not used.
  The three frames come from the generated frame runs and the reference's generated run; the idealization rewrote no
  operation, so its claim is trivial.
-/
import proofs.«411800_j32555852104251_3_alg».proof.Defs
import proofs.«411800_j32555852104251_3_alg».proof.Proof.Gen.Kernel
import proofs.«411800_j32555852104251_3_alg».proof.Proof.Gen.Kernel.Skeleton
import proofs.«411800_j32555852104251_3_alg».proof.Proof.Gen.Kernel.Launch
import proofs.«411800_j32555852104251_3_alg».proof.Proof.Gen.Kernel.Points
import proofs.«411800_j32555852104251_3_alg».proof.Proof.Gen.Kernel.Frame
import proofs.«411800_j32555852104251_3_alg».proof.Proof.Gen.KernelIdeal
import proofs.«411800_j32555852104251_3_alg».proof.Proof.Gen.KernelIdeal.Skeleton
import proofs.«411800_j32555852104251_3_alg».proof.Proof.Gen.KernelIdeal.Launch
import proofs.«411800_j32555852104251_3_alg».proof.Proof.Gen.KernelIdeal.Points
import proofs.«411800_j32555852104251_3_alg».proof.Proof.Gen.KernelIdeal.Frame
import proofs.«411800_j32555852104251_3_alg».proof.Proof.Gen.ReferenceIdeal
import proofs.«411800_j32555852104251_3_alg».proof.Proof.Gen.Pre_finite_inputs
import proofs.«411800_j32555852104251_3_alg».proof.Proof.Gen.KernelIdeal.Value
import proofs.«411800_j32555852104251_3_alg».proof.Proof.Gen.ReferenceIdeal.Run
import proofs.«411800_j32555852104251_3_alg».proof.Proof.Gen.ReferenceIdeal.Read
import proofs.«411800_j32555852104251_3_alg».proof.Proof.KernelArray
import proofs.«411800_j32555852104251_3_alg».proof.Proof.RefAffine
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at the affine map of its arguments and the
    reference's result at its last stage, which is the affine map of the same arguments. -/
theorem algebraic : Cert.algebraic_KernelIdeal_ReferenceIdeal := by
  intro m ρ m' ρ' _ hagree
  refine ⟨fun c => Cert.KernelIdeal.Affine.result m c, Cert.KernelIdeal.Affine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Affine.ref_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
